-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Consts.lean ====
/-
  The float constants the two programs spell, as the extended reals their patterns denote, stated once:
  `0.125` (the kernel's score scale, exactly 1/8), `64.0` (whose square root the reference divides by: 8),
  the two infinities (the maxima's initial value; the precondition's bound) and zero (the sums' initial value).
-/
import Idealize.ShloMosaic.PureOps.Ideal

noncomputable section

namespace Cert.Consts

open Idealize.ShloMosaic

/-- `0.125` denotes the real `1/8`. -/
theorem ofBits_eighth : Ideal.ofBits .f32 0x3E000000#32 = ((1 / 8 : ℝ) : EReal) := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- The pattern of `−∞`. -/
theorem ofBits_neg_inf : Ideal.ofBits .f32 0xFF800000#32 = (⊥ : EReal) := by
  simp [Ideal.ofBits, Ideal.ieee]

/-- The pattern of `+∞`. -/
theorem ofBits_pos_inf : Ideal.ofBits .f32 0x7F800000#32 = (⊤ : EReal) := by
  simp [Ideal.ofBits, Ideal.ieee]

/-- `+0.0` denotes `0`. -/
theorem ofBits_zero : Ideal.ofBits .f32 0x00000000#32 = 0 := by
  simp [Ideal.ofBits, Ideal.ieee]

/-- The square root of `64.0` is the real `8`. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num, Real.sqrt_sq (by norm_num)]

end Cert.Consts

end
-- ==== Proof.SoftmaxRow.lean ====
/-
  The mathematics of one attention row, on the extended reals, free of any program.

  For a query row `q`, keys `K` and one value column `v`, all REAL, write `s k = (∑ d, q d · K k d) / 8` for the
  scaled scores. Whatever real `M` is subtracted before exponentiating, the weights `p k = exp (s k - M)` are
  positive reals, so their sum `L` is a positive real, and
      (∑ k, p k · v k) / L  =  ∑ k, (p k / L) · v k :
  dividing the weighted sum once, or dividing every weight first, is one real number. That is the only law
  between the two programs; it needs every factor finite (on the extended reals a factor does not move across a
  sum at the infinities), which is what the real-valuedness hypotheses carry.

  The row maximum enters only through being SOME real: the fold of `max` from `⊥` over a nonempty family of
  reals is a real (`fold_max_real`).
-/
import Idealize.ShloMosaic.PureOps.Ideal
import Idealize.ShloMosaic.PureOps.Ideal.Laws
import Idealize.ShloMosaic.Lib.ValueIdx

noncomputable section

namespace Cert.Attn

open Idealize.ShloMosaic

/-- The coercion ℝ → EReal commutes with a finite sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Folding `max` from `⊥` over real entries gives `⊥` on the empty set and a real otherwise. -/
theorem fold_max_real_aux {ι : Type} [DecidableEq ι] (f : ι → EReal) (s : Finset ι)
    (hf : ∀ j ∈ s, ∃ r : ℝ, f j = (r : EReal)) :
    (s.fold max (⊥ : EReal) f = ⊥ ∧ s = ∅) ∨ ∃ M : ℝ, s.fold max (⊥ : EReal) f = (M : EReal) := by
  induction s using Finset.induction_on with
  | empty => exact Or.inl ⟨Finset.fold_empty, rfl⟩
  | insert a s ha ih =>
    right
    obtain ⟨r, hr⟩ := hf a (Finset.mem_insert_self a s)
    rw [Finset.fold_insert ha, hr]
    rcases ih (fun j hj => hf j (Finset.mem_insert_of_mem hj)) with ⟨h0, _⟩ | ⟨M, hM⟩
    · rw [h0]; exact ⟨r, max_bot_right _⟩
    · rw [hM]; exact ⟨max r M, (EReal.coe_strictMono.monotone.map_max).symm⟩

/-- The maximum of a nonempty row of reals, folded from `⊥`, is a real. -/
theorem fold_max_real {ι : Type} [Fintype ι] [Nonempty ι] (f : ι → EReal) (hf : ∀ j, ∃ r : ℝ, f j = (r : EReal)) :
    ∃ M : ℝ, (Finset.univ : Finset ι).fold max (⊥ : EReal) f = (M : EReal) := by
  classical
  rcases fold_max_real_aux f Finset.univ (fun j _ => hf j) with ⟨_, h⟩ | h
  · exact absurd h Finset.univ_nonempty.ne_empty
  · exact h

/-- `exp` of a difference of reals is the real exponential. -/
theorem exp_sub_coe (a M : ℝ) : Ideal.exp ((a : EReal) - (M : EReal)) = ((Real.exp (a - M) : ℝ) : EReal) := by
  rw [← EReal.coe_sub]; rfl

variable {J D : Type} [Fintype J] [Fintype D]

/-- The kernel's score: the query row scaled by 1/8 first, then contracted with a key row. -/
theorem score_scaled_first (q : D → ℝ) (K : D → ℝ) :
    (∑ d, ((q d : EReal) * (((1 / 8 : ℝ)) : EReal)) * (K d : EReal)) = (((∑ d, q d * K d) / 8 : ℝ) : EReal) := by
  simp only [← EReal.coe_mul]
  rw [coe_sum]
  congr 1
  rw [Finset.sum_div]
  exact Finset.sum_congr rfl fun d _ => by ring

/-- The reference's score: contracted first, then divided by 8. -/
theorem score_divided_after (q : D → ℝ) (K : D → ℝ) :
    Ideal.div (∑ d, (q d : EReal) * (K d : EReal)) ((8 : ℝ) : EReal) = (((∑ d, q d * K d) / 8 : ℝ) : EReal) := by
  simp only [← EReal.coe_mul]
  rw [coe_sum, Ideal.div_coe (by norm_num : (8 : ℝ) ≠ 0), ← EReal.coe_mul]
  congr 1
  ring

/-- One attention row: the weighted sum divided once by the weights' total is the sum with every weight divided
    first — for real scores, a real shift and a real value column. -/
theorem softmax_row [Nonempty J] (s : J → ℝ) (M : ℝ) (v : J → ℝ) :
    Ideal.div (∑ k, Ideal.exp ((s k : EReal) - (M : EReal)) * (v k : EReal)) (∑ k, Ideal.exp ((s k : EReal) - (M : EReal)))
      = ∑ k, Ideal.div (Ideal.exp ((s k : EReal) - (M : EReal))) (∑ k', Ideal.exp ((s k' : EReal) - (M : EReal))) * (v k : EReal) := by
  have hL : (∑ k, Real.exp (s k - M)) ≠ 0 :=
    ne_of_gt (Finset.sum_pos (fun k _ => Real.exp_pos _) Finset.univ_nonempty)
  simp only [exp_sub_coe, ← EReal.coe_mul]
  rw [coe_sum, coe_sum]
  simp only [Ideal.div_coe hL, ← EReal.coe_mul]
  rw [coe_sum]
  congr 1
  rw [Finset.sum_mul]
  exact Finset.sum_congr rfl fun k _ => by ring

/-! ## The two row formulas and their equality -/

section Rows

variable {J D : Type} [Fintype J] [Fintype D]

/-- One output entry as the KERNEL computes it, from a query row `q`, the keys `K` and one value column `v`: scores
    with the query scaled by `c` first; the row maximum folded from `ninf`; unnormalised weights `exp (s - max)`; the
    weighted sum of the column divided ONCE by the weights' total. -/
def rowK (c ninf : EReal) (q : D → EReal) (K : J → D → EReal) (v : J → EReal) : EReal :=
  Ideal.div
    (∑ j, Ideal.exp ((∑ d, (q d * c) * K j d) - (Finset.univ : Finset J).fold max ninf (fun j' => ∑ d, (q d * c) * K j' d)) * v j)
    (∑ j, Ideal.exp ((∑ d, (q d * c) * K j d) - (Finset.univ : Finset J).fold max ninf (fun j' => ∑ d, (q d * c) * K j' d)))

/-- The same entry as the REFERENCE computes it: scores contracted first and then divided by `sq`; the row maximum
    (folded from `ninf`, then once more maximised against `ninf`); every weight divided by the total (`z` plus the sum)
    BEFORE it multiplies the column. -/
def rowR (sq ninf z : EReal) (q : D → EReal) (K : J → D → EReal) (v : J → EReal) : EReal :=
  ∑ j, Ideal.div
      (Ideal.exp (Ideal.div (∑ d, q d * K j d) sq
        - max ninf ((Finset.univ : Finset J).fold max ninf (fun j' => Ideal.div (∑ d, q d * K j' d) sq))))
      (z + ∑ j₁, Ideal.exp (Ideal.div (∑ d, q d * K j₁ d) sq
        - max ninf ((Finset.univ : Finset J).fold max ninf (fun j' => Ideal.div (∑ d, q d * K j' d) sq))))
    * v j

/-- On REAL data, with `c = 1/8`, `sq = 8`, `ninf = ⊥` and `z = 0`, the two formulas are one number: the scores agree
    (`score_scaled_first`, `score_divided_after`), so the maxima are one real `M` (`fold_max_real`), and the rest is
    `softmax_row`. -/
theorem row_eq [Nonempty J] {c sq ninf z : EReal} (hc : c = ((1 / 8 : ℝ) : EReal)) (hsq : sq = ((8 : ℝ) : EReal))
    (hn : ninf = ⊥) (hz : z = 0) (q : D → ℝ) (K : J → D → ℝ) (v : J → ℝ) :
    rowK c ninf (fun d => (q d : EReal)) (fun j d => (K j d : EReal)) (fun j => (v j : EReal))
      = rowR sq ninf z (fun d => (q d : EReal)) (fun j d => (K j d : EReal)) (fun j => (v j : EReal)) := by
  subst hc hsq hn hz
  unfold rowK rowR
  simp only [score_scaled_first, score_divided_after]
  obtain ⟨M, hM⟩ := fold_max_real (fun j' => ((((∑ d, q d * K j' d) / 8 : ℝ)) : EReal)) (fun j => ⟨_, rfl⟩)
  rw [hM, max_eq_right bot_le, zero_add]
  exact softmax_row (fun j => (∑ d, q d * K j d) / 8) M v

end Rows

/-! ## The whole arrays -/

open Idealize.ShloMosaic.ValueIdx in
/-- The kernel's result array as ONE function of the three argument arrays `[16, 2048, 64]`: entry `(b, i, e)` is
    `rowK` of query row `(b, i)`, the keys of batch `b` and column `e` of the values of batch `b`. -/
def attnK (c ninf : EReal) (Q K V : (⟨3, ![16, 2048, 64]⟩ : Shape).Idx → EReal) : (⟨3, ![16, 2048, 64]⟩ : Shape).Idx → EReal :=
  fun idx => rowK c ninf (fun d : Fin 64 => Q (ix3 (idx 0) (idx 1) d)) (fun (j : Fin 2048) (d : Fin 64) => K (ix3 (idx 0) j d))
    (fun j : Fin 2048 => V (ix3 (idx 0) j (idx 2)))

open Idealize.ShloMosaic.ValueIdx in
/-- The reference's result array, the same way over `rowR`. -/
def attnR (sq ninf z : EReal) (Q K V : (⟨3, ![16, 2048, 64]⟩ : Shape).Idx → EReal) : (⟨3, ![16, 2048, 64]⟩ : Shape).Idx → EReal :=
  fun idx => rowR sq ninf z (fun d : Fin 64 => Q (ix3 (idx 0) (idx 1) d)) (fun (j : Fin 2048) (d : Fin 64) => K (ix3 (idx 0) j d))
    (fun j : Fin 2048 => V (ix3 (idx 0) j (idx 2)))

open Idealize.ShloMosaic.ValueIdx in
/-- `attnK` at an index given by its coordinates. -/
theorem attnK_ix3 (c ninf : EReal) (Q K V : (⟨3, ![16, 2048, 64]⟩ : Shape).Idx → EReal) (b : Fin 16) (i : Fin 2048) (e : Fin 64) :
    attnK c ninf Q K V (ix3 b i e)
      = rowK c ninf (fun d : Fin 64 => Q (ix3 b i d)) (fun (j : Fin 2048) (d : Fin 64) => K (ix3 b j d)) (fun j : Fin 2048 => V (ix3 b j e)) := rfl

open Idealize.ShloMosaic.ValueIdx in
/-- `attnR` at an index given by its coordinates. -/
theorem attnR_ix3 (sq ninf z : EReal) (Q K V : (⟨3, ![16, 2048, 64]⟩ : Shape).Idx → EReal) (b : Fin 16) (i : Fin 2048) (e : Fin 64) :
    attnR sq ninf z Q K V (ix3 b i e)
      = rowR sq ninf z (fun d : Fin 64 => Q (ix3 b i d)) (fun (j : Fin 2048) (d : Fin 64) => K (ix3 b j d)) (fun j : Fin 2048 => V (ix3 b j e)) := rfl

/-- On arrays whose every entry is a real the two result arrays are equal. -/
theorem attn_eq {c sq ninf z : EReal} (hc : c = ((1 / 8 : ℝ) : EReal)) (hsq : sq = ((8 : ℝ) : EReal))
    (hn : ninf = ⊥) (hz : z = 0) (Q K V : (⟨3, ![16, 2048, 64]⟩ : Shape).Idx → EReal)
    (hQ : ∀ i, ∃ r : ℝ, Q i = (r : EReal)) (hK : ∀ i, ∃ r : ℝ, K i = (r : EReal)) (hV : ∀ i, ∃ r : ℝ, V i = (r : EReal)) :
    attnK c ninf Q K V = attnR sq ninf z Q K V := by
  choose q hq using hQ
  choose k hk using hK
  choose v hv using hV
  funext idx
  unfold attnK attnR
  simp only [hq, hk, hv]
  exact row_eq hc hsq hn hz _ _ _

end Cert.Attn

end
-- ==== Proof.Finite.lean ====
/-
  What the precondition gives: every entry of the three argument arrays is a real number.

  The printed predicate is the conjunction of three `all (|x| < +∞)`, one per argument. Each `all` that is 1 had a 1 at
  every index, and `|x| < +∞` on the extended reals excludes both infinities: at `⊤` and at `⊥` the absolute value
  `max x (-x)` is `⊤`.
-/
import proofs.«400171_j46634754900128_3_alg».proof.Pre_finite_inputs
import proofs.«400171_j46634754900128_3_alg».proof.Proof.Gen.Pre_finite_inputs
import proofs.«400171_j46634754900128_3_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Facts

/-- The scalar shape has one index. -/
instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [Cert.Consts.ofBits_pos_inf] at h
  have hlt : max x (-x) < ⊤ := by
    by_contra hn
    simp [Ideal.cmp, hn] at h
  induction x using EReal.rec with
  | bot => simp at hlt
  | coe r => exact ⟨r, rfl⟩
  | top => simp at hlt

/-- Under the precondition every entry of every argument is a real. -/
theorem all_real (a0 a1 a2 : FVec Ideal S16x2048x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Finite

end
-- ==== Proof.KernelRow.lean ====
/-
  The kernel body's arithmetic, read at one entry.

  The body's one stored value is, for a query block `x0 : [1, 1024, 64]` and the key and value blocks
  `x1, x2 : [1, 2048, 64]`, three stages in a row:
    scores   s[i, j] = ∑ d, (q[i, d] · c) · k[j, d]          (a contraction over the last axis of both operands)
    weights  p[i, j] = exp (s[i, j] − max_j' s[i, j'])         (the row maximum folded from the accumulator's value)
    result   o[i, e] = (∑ j, p[i, j] · v[j, e]) / (∑ j, p[i, j])
  with the unit leading axis dropped on the way in and put back on the way out. Each stage is read at an index
  here, and the three are chained into `pay_apply`: the stored value at `(0, i, e)` is `Cert.Attn.rowK` of row `i` of
  the query block, the key block and column `e` of the value block. Changes of float format are the identity at
  the ideal values, so they disappear by unfolding.
-/
import proofs.«400171_j46634754900128_3_alg».proof.Proof.Gen.KernelIdeal.Skeleton
import proofs.«400171_j46634754900128_3_alg».proof.Proof.SoftmaxRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## Two keepdims layout steps read at an index -/

/-- A vector `[a]` cast to a column `[a, 1]` reads, at `(i, u)`, the vector at `i`. -/
theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(i, k)`, the column at `i`. -/
theorem bcast_col {α : Type} {a b : ℕ} (v : (⟨2, ![a, 1]⟩ : Shape).Idx → α) (h : (⟨2, ![a, 1]⟩ : Shape).Broadcasts ⟨2, ![a, b]⟩)
    (i : Fin a) (k : Fin b) : broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-! ## The operand indices of the two contractions -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The two row reductions read at a row -/

/-- The maximum over a row of a `[1024, 2048]` block, from the accumulator's value: the fold of `max` over the row. -/
theorem rowmax_apply (s : FVec Ideal S1024x2048 .f32) (hφ : FKind.Formats .f32)
    (hacc : (0xFF800000#32 : BitVec 32) = 0xFF800000#32) (i : Fin 1024) :
    multiReduction .maximumf [1] S1024 s 0xFF800000#32 reduces_S1024x2048_S1024 hφ hacc (ix1 i)
      = (Finset.univ : Finset (Fin 2048)).fold max (Ideal.ofBits .f32 0xFF800000#32) (fun j' => s (ix2 i j')) := by
  refine (Ideal.multiReduction_maximumf_single s 0xFF800000#32 reduces_S1024x2048_S1024 hφ hacc (ix1 i)).trans ?_
  have hl : (s ∘ reduces_S1024x2048_S1024.lift (ix1 i)) = fun j' : Fin 2048 => s (ix2 i j') :=
    funext fun j' => congrArg s (funext fun a => Fin.ext (by match a with | ⟨0, _⟩ => rfl | ⟨1, _⟩ => rfl))
  rw [hl]
  rfl

/-- The sum over a row of a `[1024, 2048]` block. -/
theorem rowsum_apply (p : FVec Ideal S1024x2048 .f32) (hφ : FKind.Formats .f32)
    (hacc : (0x00000000#32 : BitVec 32) = 0x00000000#32) (i : Fin 1024) :
    multiReduction .add [1] S1024 p 0x00000000#32 reduces_S1024x2048_S1024 hφ hacc (ix1 i) = ∑ j : Fin 2048, p (ix2 i j) := by
  refine (Ideal.multiReduction_add_single p 0x00000000#32 reduces_S1024x2048_S1024 hφ hacc (ix1 i)).trans ?_
  exact Finset.sum_congr rfl fun j _ =>
    congrArg p (funext fun a => Fin.ext (by match a with | ⟨0, _⟩ => rfl | ⟨1, _⟩ => rfl))

/-! ## The three stages -/

/-- The scores of a query block against a key block. -/
def scores (q : FVec Ideal S1024x64 .f32) (k : FVec Ideal S2048x64 .f32) : FVec Ideal S1024x2048 .f32 :=
  matmul dot_S1024x64_S2048x64_S1024x2048_1_1_0_0_n_n none
    (truncf .bf16 (mulf q (broadcast S1024x64 (Scalar.ofBits (F := Ideal) .f32 0x3E000000#32))) bitsLt_bf16_f32)
    (truncf .bf16 k bitsLt_bf16_f32) (constant S1024x2048 .f32 0x00000000#32)

/-- The unnormalised weights of a block of scores: each row shifted by its maximum, exponentiated. -/
def weights (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl) shapeCasts_S1024_S1024x1)
    broadcasts_S1024x1_S1024x2048))

/-- The weighted sum of the value block's rows, each row of the result divided by its weights' total. -/
def normalized (p : FVec Ideal S1024x2048 .f32) (v : FVec Ideal S2048x64 .f32) : FVec Ideal S1024x64 .f32 :=
  divf (matmul dot_S1024x2048_S2048x64_S1024x64_1_0_0_1_n_n none (truncf .bf16 p bitsLt_bf16_f32) (truncf .bf16 v bitsLt_bf16_f32) (constant S1024x64 .f32 0x00000000#32))
    (broadcastTo S1024x64
      (shapeCast S1024x1 (multiReduction .add [1] S1024 p 0x00000000#32 reduces_S1024x2048_S1024 (.inl rfl) rfl) shapeCasts_S1024_S1024x1)
      broadcasts_S1024x1_S1024x64)

/-- The stored value is the three stages composed, between the two casts of the unit axis. -/
theorem pay_eq (x0 : Vec Ideal S1x1024x64 .f32) (x1 x2 : Vec Ideal S1x2048x64 .f32) :
    k0_pay1 (F := Ideal) x0 x1 x2
      = shapeCast S1x1024x64
          (normalized (weights (scores (shapeCast S1024x64 x0 shapeCasts_S1x1024x64_S1024x64) (shapeCast S2048x64 x1 shapeCasts_S1x2048x64_S2048x64)))
            (shapeCast S2048x64 x2 shapeCasts_S1x2048x64_S2048x64))
          shapeCasts_S1024x64_S1x1024x64 := rfl

/-- A score is the sum over the head dimension of the scaled query entry times the key entry. -/
theorem scores_apply (q : FVec Ideal S1024x64 .f32) (k : FVec Ideal S2048x64 .f32) (i : Fin 1024) (j : Fin 2048) :
    scores q k (ix2 i j) = ∑ d : Fin 64, (q (ix2 i d) * Ideal.ofBits .f32 0x3E000000#32) * k (ix2 j d) := by
  unfold scores
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 i j) ((contrEquiv1 dot_S1024x64_S2048x64_S1024x2048_1_1_0_0_n_n 64 rfl rfl).symm d) = ix2 i d := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 i j) ((contrEquiv1 dot_S1024x64_S2048x64_S1024x2048_1_1_0_0_n_n 64 rfl rfl).symm d) = ix2 j d := funext fun a => Fin.ext (by
    match a with
    | ⟨0, _⟩ => exact rhs_qk_0 _ _
    | ⟨1, _⟩ => exact (rhs_qk_1 _ _).trans hk)
  rw [el, er]
  rfl

/-- A weight is `exp` of the score minus the fold of `max` over the score's row. -/
theorem weights_apply (s : FVec Ideal S1024x2048 .f32) (i : Fin 1024) (j : Fin 2048) :
    weights s (ix2 i j)
      = Ideal.exp (s (ix2 i j) - (Finset.univ : Finset (Fin 2048)).fold max (Ideal.ofBits .f32 0xFF800000#32) (fun j' => s (ix2 i j'))) := by
  unfold weights
  show Ideal.exp (s (ix2 i j) - broadcastTo S1024x2048 _ broadcasts_S1024x1_S1024x2048 (ix2 i j)) = _
  rw [bcast_col, cast_col, rowmax_apply]

/-- A result entry is the weighted sum of a value column divided by the weights' total. -/
theorem normalized_apply (p : FVec Ideal S1024x2048 .f32) (v : FVec Ideal S2048x64 .f32) (i : Fin 1024) (e : Fin 64) :
    normalized p v (ix2 i e) = Ideal.div (∑ j : Fin 2048, p (ix2 i j) * v (ix2 j e)) (∑ j : Fin 2048, p (ix2 i j)) := by
  unfold normalized
  rw [divf_apply]
  simp only [matmul]
  rw [Ideal.matmul_constant_zero_apply, ← Equiv.sum_comp (contrEquiv1 dot_S1024x2048_S2048x64_S1024x64_1_0_0_1_n_n 2048 rfl rfl).symm, bcast_col, cast_col,
    rowsum_apply]
  refine congrArg (fun x => Ideal.div x (∑ j : Fin 2048, p (ix2 i j))) ?_
  · refine Finset.sum_congr rfl fun j _ => ?_
    have hk := contrEquiv1_symm_val dot_S1024x2048_S2048x64_S1024x64_1_0_0_1_n_n 2048 rfl rfl j
    have el : dot_S1024x2048_S2048x64_S1024x64_1_0_0_1_n_n.lhsIdx (ix2 i e) ((contrEquiv1 dot_S1024x2048_S2048x64_S1024x64_1_0_0_1_n_n 2048 rfl rfl).symm j) = ix2 i j := funext fun a => Fin.ext (by
      match a with
      | ⟨0, _⟩ => exact lhs_pv_0 _ _
      | ⟨1, _⟩ => exact (lhs_pv_1 _ _).trans hk)
    have er : dot_S1024x2048_S2048x64_S1024x64_1_0_0_1_n_n.rhsIdx (ix2 i e) ((contrEquiv1 dot_S1024x2048_S2048x64_S1024x64_1_0_0_1_n_n 2048 rfl rfl).symm j) = ix2 j e := funext fun a => Fin.ext (by
      match a with
      | ⟨0, _⟩ => exact (rhs_pv_0 _ _).trans hk
      | ⟨1, _⟩ => exact rhs_pv_1 _ _)
    rw [el, er]
    rfl

/-- THE STORED VALUE AT `(0, i, e)`: `rowK` of row `i` of the query block, the key block and column `e` of the value block. -/
theorem pay_apply (x0 : Vec Ideal S1x1024x64 .f32) (x1 x2 : Vec Ideal S1x2048x64 .f32) (i : Fin 1024) (e : Fin 64) :
    k0_pay1 (F := Ideal) x0 x1 x2 (ix3 (0 : Fin 1) i e)
      = Cert.Attn.rowK (Ideal.ofBits .f32 0x3E000000#32) (Ideal.ofBits .f32 0xFF800000#32)
          (fun d : Fin 64 => x0 (ix3 (0 : Fin 1) i d)) (fun (j : Fin 2048) (d : Fin 64) => x1 (ix3 (0 : Fin 1) j d))
          (fun j : Fin 2048 => x2 (ix3 (0 : Fin 1) j e)) := by
  rw [pay_eq, shapeCast_ab_1ab_apply, normalized_apply]
  simp only [weights_apply, scores_apply, shapeCast_1ab_ab_apply]
  rfl

end Cert.KernelIdeal.Row

end
-- ==== Proof.KernelArray.lean ====
/-
  From blocks to the whole array: after the run the kernel's result array is `Cert.Attn.attnK` of the three argument
  arrays.

  Grid point `t` is a pair (batch `b`, query tile `h`), `b < 16`, `h < 2`. Its query block and its output block are rows
  `1024·h … 1024·h + 1023` of batch `b`; its key and value blocks are the whole of batch `b`. So entry `(0, i, e)` of
  what the point writes back — `rowK` of the query block's row `i`, the key block and the value block's column `e` —
  is entry `(b, 1024·h + i, e)` of `attnK` of the arrays (`block_value`, `flushed_eq`), and the 32 output blocks tile the
  array (`cover`): the point that covers row `r` of batch `b` is `(b, r / 1024)`.
-/
import proofs.«400171_j46634754900128_3_alg».proof.Proof.Gen.KernelIdeal.Value
import proofs.«400171_j46634754900128_3_alg».proof.Proof.KernelRow
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The result array: `attnK`, with the scale and the maximum's initial value as the body prints them. -/
abbrev result (Q K V : S16x2048x64.Idx → EReal) : S16x2048x64.Idx → EReal :=
  Cert.Attn.attnK (Ideal.ofBits .f32 0x3E000000#32) (Ideal.ofBits .f32 0xFF800000#32) Q K V

/-- ONE POINT'S VALUE: if a query block is rows `r0 … r0 + 1023` of batch `b` of `Q`, and the key and value blocks are
    batch `b` of `K` and `V`, then the stored value at `y` is `result Q K V` at batch `b`, row `r0 + y 1`, column `y 2`. -/
theorem block_value (Q K V : S16x2048x64.Idx → EReal) (x0 : Vec Ideal S1x1024x64 .f32) (x1 x2 : Vec Ideal S1x2048x64 .f32)
    (b r0 : ℕ) (hb : b < 16) (hr : r0 + 1024 ≤ 2048)
    (h0 : ∀ (i : Fin 1024) (d : Fin 64), x0 (ix3 (0 : Fin 1) i d) = Q (ix3 (⟨b, hb⟩ : Fin 16) (⟨r0 + i.val, by omega⟩ : Fin 2048) d))
    (h1 : ∀ (k : Fin 2048) (d : Fin 64), x1 (ix3 (0 : Fin 1) k d) = K (ix3 (⟨b, hb⟩ : Fin 16) k d))
    (h2 : ∀ (k : Fin 2048) (d : Fin 64), x2 (ix3 (0 : Fin 1) k d) = V (ix3 (⟨b, hb⟩ : Fin 16) k d))
    (y : S1x1024x64.Idx) (idx : S16x2048x64.Idx)
    (e0 : (idx 0).val = b) (e1 : (idx 1).val = r0 + (y 1).val) (e2 : (idx 2).val = (y 2).val) :
    k0_pay1 (F := Ideal) x0 x1 x2 y = result Q K V idx := by
  have hlt : ∀ i : Fin 1024, r0 + i.val < 2048 := fun i => by omega
  obtain ⟨u, i, e, rfl⟩ : ∃ (u : Fin 1) (i : Fin 1024) (e : Fin 64), y = ix3 u i e := ⟨y 0, y 1, y 2, eq_ix3 y⟩
  obtain ⟨b', i', e', rfl⟩ : ∃ (b' : Fin 16) (i' : Fin 2048) (e' : Fin 64), idx = ix3 b' i' e' := ⟨idx 0, idx 1, idx 2, eq_ix3 idx⟩
  obtain rfl : u = 0 := Fin.ext (by omega)
  obtain rfl : b' = ⟨b, hb⟩ := Fin.ext e0
  obtain rfl : i' = ⟨r0 + i.val, hlt i⟩ := Fin.ext e1
  obtain rfl : e' = e := Fin.ext e2
  unfold result
  rw [Row.pay_apply, Cert.Attn.attnK_ix3]
  simp only [h0, h1, h2]

/-! ## The index maps over the grid -/

/-- The printed index maps, decided over the 32 points: the query window moves with the output window, the key and
    value windows follow its batch coordinate only, and the output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 1 ∧ win0_3.index t (2 : Fin 3) = 0 :=
  (by decide +kernel : ∀ t : Fin grid0.N, _)

/-- Every (batch, query tile) is some point's output block. -/
theorem idx_onto : ∀ (b : Fin 16) (h : Fin 2), ∃ t : Fin cfg0.N, win0_3.index t = ![b.val, h.val, 0] :=
  (by decide +kernel : ∀ (b : Fin 16) (h : Fin 2), ∃ t : Fin grid0.N, win0_3.index t = ![b.val, h.val, 0])

/-! ## What a point writes back -/

/-- WHAT POINT `t` WRITES BACK is block `t` of `result` of the argument arrays as the region finds them. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Value.flushed3]
  unfold out0_3
  rw [View.canon_unit_zero hz3]
  simp only [View.ld_unit_zero (S := S1x1024x64) hz3, View.ld_unit_zero (S := S1x2048x64) hz3]
  obtain ⟨e00, e01, e02, e10, e11, e12, e20, e21, e22, b0, b1, b2⟩ := idx_facts t
  funext j
  show k0_pay1 (F := Ideal) (iblk m c 0 t) (iblk m c 1 t) (iblk m c 2 t) j
    = result (V m c main_arg0) (V m c main_arg1) (V m c main_arg2) (((cfg0.win 3).blk t).view.emb j)
  refine block_value (V m c main_arg0) (V m c main_arg1) (V m c main_arg2) (iblk m c 0 t) (iblk m c 1 t) (iblk m c 2 t)
    (win0_3.index t (0 : Fin 3)) (win0_3.index t (1 : Fin 3) * 1024) (by omega) (by omega) ?_ ?_ ?_ j
    (((cfg0.win 3).blk t).view.emb j) ?_ ?_ ?_
  · intro i d
    unfold iblk
    rw [View.read_apply]
    show V m c main_arg0 _ = V m c main_arg0 _
    congr 1
    funext a
    apply Fin.ext
    match a with
    | ⟨0, _⟩ => show win0_0.index t (0 : Fin 3) * 1 + 1 * 0 = win0_3.index t (0 : Fin 3); omega
    | ⟨1, _⟩ => show win0_0.index t (1 : Fin 3) * 1024 + 1 * i.val = win0_3.index t (1 : Fin 3) * 1024 + i.val; omega
    | ⟨2, _⟩ => show win0_0.index t (2 : Fin 3) * 64 + 1 * d.val = d.val; omega
  · intro k d
    unfold iblk
    rw [View.read_apply]
    show V m c main_arg1 _ = V m c main_arg1 _
    congr 1
    funext a
    apply Fin.ext
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * d.val = d.val; omega
  · intro k d
    unfold iblk
    rw [View.read_apply]
    show V m c main_arg2 _ = V m c main_arg2 _
    congr 1
    funext a
    apply Fin.ext
    match a with
    | ⟨0, _⟩ => show win0_2.index t (0 : Fin 3) * 1 + 1 * 0 = win0_3.index t (0 : Fin 3); omega
    | ⟨1, _⟩ => show win0_2.index t (1 : Fin 3) * 2048 + 1 * k.val = k.val; omega
    | ⟨2, _⟩ => show win0_2.index t (2 : Fin 3) * 64 + 1 * d.val = d.val; omega
  · show win0_3.index t (0 : Fin 3) * 1 + 1 * (j 0).val = win0_3.index t (0 : Fin 3)
    have hj : (j 0).val < 1 := (j 0).isLt
    omega
  · show win0_3.index t (1 : Fin 3) * 1024 + 1 * (j 1).val = win0_3.index t (1 : Fin 3) * 1024 + (j 1).val
    omega
  · show win0_3.index t (2 : Fin 3) * 64 + 1 * (j 2).val = (j 2).val
    omega

/-! ## The cover -/

/-- An index of the array is in point `t`'s block iff each coordinate is in the block's range on its axis. -/
theorem mem_blk (t : Fin cfg0.N) (i : S16x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- Every index of the array is in some point's block: row `r` of batch `b` is in the block of point `(b, r / 1024)`. -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The array after the run, and the run -/

/-- THE ARRAY after the run is `result` of the argument arrays. -/
theorem final (c : Dev nD) :
    (dats m 0 c).arrAt 3 cfg0.N = result (V m c main_arg0) (V m c main_arg1) (V m c main_arg2) :=
  (dats m 0 c).arrAt_eq_of_cover 3 (result (V m c main_arg0) (V m c main_arg1) (V m c main_arg2))
    (fun t _ => flushed_eq m c t) cover

/-- The frame run re-posted: the result array at `attnK` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefArray.lean ====
/-
  The reference's result, read at one entry.

  The generated stage lemmas read every operation of the reference at an index but one, the row maximum (a fold over
  an axis), which is read here as the fold of `max` over the key coordinate. Stage by stage, at batch `b`, query row
  `i`, key `j`, column `e`:
    scores   s[b, i, j] = (∑ d, q[b, i, d] · k[b, j, d]) / sqrt 64
    maximum  m[b, i]    = max (−∞) (fold of max from −∞ over j of s[b, i, j])
    weights  p[b, i, j] = exp (s[b, i, j] − m[b, i])
    total    l[b, i]    = 0 + ∑ j, p[b, i, j]
    result   o[b, i, e] = ∑ j, (p[b, i, j] / l[b, i]) · v[b, j, e]
  which is `Cert.Attn.attnR` of the three arguments, index by index (`ref_eq`).
-/
import proofs.«400171_j46634754900128_3_alg».proof.Proof.Gen.ReferenceIdeal.Read
import proofs.«400171_j46634754900128_3_alg».proof.Proof.SoftmaxRow
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 x1 x2 : (⟨S16x2048x64, .f32⟩ : BufTy).Contents (Elt Ideal))

/-! ## The generated index functions at coordinates -/

theorem lidx0 (b : Fin 16) (i j : Fin 2048) (d : Fin 64) : lidx_main_v0 (ix3 b i j) d = ix3 b i d :=
  funext fun a => Fin.ext (by match a with | ⟨0, _⟩ => rfl | ⟨1, _⟩ => rfl | ⟨2, _⟩ => rfl)
theorem ridx0 (b : Fin 16) (i j : Fin 2048) (d : Fin 64) : ridx_main_v0 (ix3 b i j) d = ix3 b j d :=
  funext fun a => Fin.ext (by match a with | ⟨0, _⟩ => rfl | ⟨1, _⟩ => rfl | ⟨2, _⟩ => rfl)
theorem idx78 (b : Fin 16) (i j : Fin 2048) : idx_main_v7 (idx_main_v8 (ix3 b i j)) = ix2 b i :=
  funext fun a => Fin.ext (by match a with | ⟨0, _⟩ => rfl | ⟨1, _⟩ => rfl)
theorem idx1213 (b : Fin 16) (i j : Fin 2048) : idx_main_v12 (idx_main_v13 (ix3 b i j)) = ix2 b i :=
  funext fun a => Fin.ext (by match a with | ⟨0, _⟩ => rfl | ⟨1, _⟩ => rfl)
theorem idx11 (b : Fin 16) (i k : Fin 2048) : idx_main_v11 (ix2 b i) k = ix3 b i k :=
  funext fun a => Fin.ext (by match a with | ⟨0, _⟩ => rfl | ⟨1, _⟩ => rfl | ⟨2, _⟩ => rfl)
theorem lidx15 (b : Fin 16) (i : Fin 2048) (e : Fin 64) (j : Fin 2048) : lidx_main_v15 (ix3 b i e) j = ix3 b i j :=
  funext fun a => Fin.ext (by match a with | ⟨0, _⟩ => rfl | ⟨1, _⟩ => rfl | ⟨2, _⟩ => rfl)
theorem ridx15 (b : Fin 16) (i : Fin 2048) (e : Fin 64) (j : Fin 2048) : ridx_main_v15 (ix3 b i e) j = ix3 b j e :=
  funext fun a => Fin.ext (by match a with | ⟨0, _⟩ => rfl | ⟨1, _⟩ => rfl | ⟨2, _⟩ => rfl)

/-! ## The stages at coordinates -/

/-- A score: the contraction over the head dimension, divided by `sqrt 64`. -/
theorem score_at (b : Fin 16) (i j : Fin 2048) :
    val_main_v3 (F := Ideal) x0 x1 (ix3 b i j)
      = Ideal.div (∑ d : Fin 64, x0 (ix3 b i d) * x1 (ix3 b j d)) (Ideal.sqrt (Ideal.ofBits .f32 0x42800000#32)) := by
  rw [val_main_v3_apply, val_main_v0_apply, val_main_v2_apply, val_main_v1_apply, val_main_cst_apply]
  simp only [lidx0, ridx0]
  rfl

/-- The row maximum: the reduce over the key axis is the fold of `max` over the key coordinate from the initial value,
    and the reference maximises it once more against `−∞`. -/
theorem rowmax_at (b : Fin 16) (i : Fin 2048) :
    val_main_v6 (F := Ideal) x0 x1 (ix2 b i)
      = max (Ideal.ofBits .f32 0xFF800000#32)
          ((Finset.univ : Finset (Fin 2048)).fold max (Ideal.ofBits .f32 0xFF800000#32)
            (fun j' => val_main_v3 (F := Ideal) x0 x1 (ix3 b i j'))) := by
  rw [val_main_v6_apply, val_main_v5_apply, val_main_cst_1_apply]
  unfold val_main_v4
  rw [Host.reduce_eq_fold_single FloatOps.maximumf _ _ reducesTo_S16x2048x2048_S16x2048_d2
    (by decide : S16x2048x2048.Reduces [2] S16x2048) h_S_ (ix2 b i)]
  have hl : (val_main_v3 (F := Ideal) x0 x1 ∘ (by decide : S16x2048x2048.Reduces [2] S16x2048).lift (ix2 b i))
      = fun j' : Fin 2048 => val_main_v3 (F := Ideal) x0 x1 (ix3 b i j') :=
    funext fun j' => congrArg (val_main_v3 (F := Ideal) x0 x1)
      (funext fun a => Fin.ext (by match a with | ⟨0, _⟩ => rfl | ⟨1, _⟩ => rfl | ⟨2, _⟩ => rfl))
  rw [hl]
  rfl

/-- A weight: `exp` of the score minus its row's maximum. -/
theorem weight_at (b : Fin 16) (i j : Fin 2048) :
    val_main_v10 (F := Ideal) x0 x1 (ix3 b i j)
      = Ideal.exp (val_main_v3 (F := Ideal) x0 x1 (ix3 b i j) - val_main_v6 (F := Ideal) x0 x1 (ix2 b i)) := by
  rw [val_main_v10_apply, val_main_v9_apply, val_main_v8_apply, val_main_v7_apply, idx78]
  rfl

/-- The weights' total, as the reference broadcasts it back along the row: the initial value plus the sum. -/
theorem total_at (b : Fin 16) (i j : Fin 2048) :
    val_main_v13 (F := Ideal) x0 x1 (ix3 b i j)
      = Ideal.ofBits .f32 0x00000000#32 + ∑ j₁ : Fin 2048, val_main_v10 (F := Ideal) x0 x1 (ix3 b i j₁) := by
  rw [val_main_v13_apply, val_main_v12_apply, idx1213, val_main_v11_apply, val_main_cst_2_apply]
  simp only [idx11]
  rfl

/-- A result entry: the sum over the keys of the normalised weight times the value entry. -/
theorem result_at (b : Fin 16) (i : Fin 2048) (e : Fin 64) :
    val_main_v15 (F := Ideal) x0 x1 x2 (ix3 b i e)
      = ∑ j : Fin 2048, Ideal.div (val_main_v10 (F := Ideal) x0 x1 (ix3 b i j)) (val_main_v13 (F := Ideal) x0 x1 (ix3 b i j))
          * x2 (ix3 b j e) := by
  rw [val_main_v15_apply]
  simp only [lidx15, ridx15, val_main_v14_apply]
  rfl

/-! ## The whole result -/

/-- THE REFERENCE'S RESULT is `attnR` of its three arguments, with the divisor `sqrt 64`, the maximum's initial value
    and the sum's initial value as printed. -/
theorem ref_eq :
    val_main_v15 (F := Ideal) x0 x1 x2
      = Cert.Attn.attnR (Ideal.sqrt (Ideal.ofBits .f32 0x42800000#32)) (Ideal.ofBits .f32 0xFF800000#32)
          (Ideal.ofBits .f32 0x00000000#32) x0 x1 x2 := by
  funext idx
  obtain ⟨b, i, e, rfl⟩ : ∃ (b : Fin 16) (i : Fin 2048) (e : Fin 64), idx = ix3 b i e := ⟨idx 0, idx 1, idx 2, eq_ix3 idx⟩
  rw [result_at, Cert.Attn.attnR_ix3]
  unfold Cert.Attn.rowR
  simp only [total_at, weight_at, rowmax_at, score_at]

end Cert.ReferenceIdeal.RefValue

end
-- ==== Proof.lean ====
/-
  Scaled dot-product attention over `[16, 2048, 64]` arrays: the kernel against the jnp reference, at the ideal values.

  For batch `b`, query row `i` and column `e` both programs compute, from scores `s_j = (∑_d q[b,i,d] · k[b,j,d]) / 8`,
      ( ∑_j exp (s_j − M) · v[b,j,e] ) / ( ∑_j exp (s_j − M) ),        M = max_j s_j.
  The kernel scales the query by 0.125 before contracting, and divides the weighted sum ONCE by the weights' total;
  the reference divides the contracted scores by `sqrt 64`, and divides every weight by the total BEFORE the second
  contraction. On finite inputs these are the same real number: 0.125 is exactly 1/8 and `sqrt 64` exactly 8; the
  maximum is some real; the weights are positive reals, so their total is a positive real and a factor `1 / total`
  moves across the finite sum (Proof/SoftmaxRow.lean). Finiteness is needed — on the extended reals a factor does not
  move across a sum at the infinities — and it is what the precondition gives (Proof/Finite.lean).

  The kernel's side: the stored value at one entry (Proof/KernelRow.lean), the 32 output blocks as one array
  (Proof/KernelArray.lean). The reference's side: its stages at one entry (Proof/RefArray.lean). The three frames are
  the generated ones; the idealization rewrote nothing, so `preserves` is trivial.
-/
import proofs.«400171_j46634754900128_3_alg».proof.Defs
import proofs.«400171_j46634754900128_3_alg».proof.Proof.Gen.Kernel
import proofs.«400171_j46634754900128_3_alg».proof.Proof.Gen.Kernel.Skeleton
import proofs.«400171_j46634754900128_3_alg».proof.Proof.Gen.Kernel.Launch
import proofs.«400171_j46634754900128_3_alg».proof.Proof.Gen.Kernel.Points
import proofs.«400171_j46634754900128_3_alg».proof.Proof.Gen.Kernel.Frame
import proofs.«400171_j46634754900128_3_alg».proof.Proof.Gen.KernelIdeal
import proofs.«400171_j46634754900128_3_alg».proof.Proof.Gen.KernelIdeal.Skeleton
import proofs.«400171_j46634754900128_3_alg».proof.Proof.Gen.KernelIdeal.Launch
import proofs.«400171_j46634754900128_3_alg».proof.Proof.Gen.KernelIdeal.Points
import proofs.«400171_j46634754900128_3_alg».proof.Proof.Gen.KernelIdeal.Frame
import proofs.«400171_j46634754900128_3_alg».proof.Proof.Gen.ReferenceIdeal
import proofs.«400171_j46634754900128_3_alg».proof.Proof.Gen.Pre_finite_inputs
import proofs.«400171_j46634754900128_3_alg».proof.Proof.Gen.KernelIdeal.Value
import proofs.«400171_j46634754900128_3_alg».proof.Proof.Gen.ReferenceIdeal.Run
import proofs.«400171_j46634754900128_3_alg».proof.Proof.Gen.ReferenceIdeal.Read
import proofs.«400171_j46634754900128_3_alg».proof.Proof.Consts
import proofs.«400171_j46634754900128_3_alg».proof.Proof.SoftmaxRow
import proofs.«400171_j46634754900128_3_alg».proof.Proof.Finite
import proofs.«400171_j46634754900128_3_alg».proof.Proof.KernelArray
import proofs.«400171_j46634754900128_3_alg».proof.Proof.RefArray
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `attnK` of its arguments and the reference's at `attnR` of the same arrays; under
    the precondition every entry of the three arrays is a real, and there the two are equal (`Cert.Attn.attn_eq`). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.Finite.all_real _ _ _ (hpre c)
  rw [Cert.ReferenceIdeal.Read.val_main_v15_eq, Cert.ReferenceIdeal.RefValue.ref_eq, (hagree c).1, (hagree c).2.1, (hagree c).2.2]
  exact (Cert.Attn.attn_eq Cert.Consts.ofBits_eighth Cert.Consts.sqrt_64 Cert.Consts.ofBits_neg_inf Cert.Consts.ofBits_zero
    _ _ _ hQ hK hV).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
